-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Gram.lean ====
/-
  The radial-basis Gram matrix of two families of 8192 points in dimension 256, as one function of the
  two arrays of coordinates, entry by entry, on the extended reals:

      K (i, j) = exp (−1 · max (‖X_i‖² + ‖Y_j‖² − 2 · ⟨X_i, Y_j⟩, 0)),

  where ‖A_i‖² = 0 + ∑_k A(i,k)² is a row's sum of squares started from the zero word and ⟨X_i, Y_j⟩ =
  ∑_k X(i,k) · Y(j,k). The three float literals (−1, 2, 0) stay the words both programs spell: they are
  the same words on both sides, so their values are never needed. No law of arithmetic is used anywhere:
  both programs evaluate this very expression, in this order of operations.
-/
import Idealize.ShloMosaic.PureOps.Ideal
import Idealize.ShloMosaic.Lib.ValueIdx

noncomputable section

open Idealize.ShloMosaic Idealize.ShloMosaic.ValueIdx
open scoped BigOperators

namespace Cert.Rbf

/-- 8192 points of dimension 256, row by row. -/
abbrev Pts : Shape := ⟨2, ![8192, 256]⟩
/-- The 8192 × 8192 matrix of pairs of points. -/
abbrev Pairs : Shape := ⟨2, ![8192, 8192]⟩

/-- The squared norm of point `i`: the sum of the squares of its coordinates, started from the zero word. -/
def sqNorm (A : Pts.Idx → EReal) (i : Fin 8192) : EReal :=
  Ideal.ofBits .f32 0x00000000#32 + ∑ k : Fin 256, A (ix2 i k) * A (ix2 i k)

/-- The inner product of point `i` of `X` with point `j` of `Y`. -/
def inner (X Y : Pts.Idx → EReal) (i j : Fin 8192) : EReal :=
  ∑ k : Fin 256, X (ix2 i k) * Y (ix2 j k)

/-- What is done to the two squared norms and the inner product of a pair: the squared distance by the
    norm expansion, clamped at zero, negated, exponentiated. -/
def rbfOf (a b d : EReal) : EReal :=
  Ideal.exp (Ideal.ofBits .f32 0xBF800000#32 * max (a + b - Ideal.ofBits .f32 0x40000000#32 * d) (Ideal.ofBits .f32 0x00000000#32))

/-- The Gram matrix's entry at the pair `(i, j)`. -/
def entry (X Y : Pts.Idx → EReal) (i j : Fin 8192) : EReal :=
  rbfOf (sqNorm X i) (sqNorm Y j) (inner X Y i j)

/-- The Gram matrix. -/
def gram (X Y : Pts.Idx → EReal) : Pairs.Idx → EReal := fun p => entry X Y (p 0) (p 1)

theorem gram_ix2 (X Y : Pts.Idx → EReal) (i j : Fin 8192) : gram X Y (ix2 i j) = entry X Y i j := rfl

end Cert.Rbf

end
-- ==== Proof.RefGram.lean ====
/-
  The reference computes the Gram matrix: its last stage, read entry by entry through the generated
  read-at-an-index lemmas, is `Cert.Rbf.gram` of its two arguments. The row and column of squared norms
  reach the entry (i, j) through two broadcasts and a transpose, which only move indices: the row index
  of the left norm is i, that of the right norm is j; the inner product contracts the coordinate axis.
-/
import proofs.«126674_j65481071410012_1_alg».proof.Proof.Gen.ReferenceIdeal.Read
import proofs.«126674_j65481071410012_1_alg».proof.Proof.Gram

noncomputable section

open Idealize.ShloMosaic Idealize.ShloMosaic.ValueIdx
open scoped BigOperators

namespace Cert.Rbf.Ref

open Cert.ReferenceIdeal Cert.ReferenceIdeal.Gen Cert.ReferenceIdeal.Read

/-- The left norm's summands at the entry (i, j) are those of row i. -/
theorem idx_left (i j : Fin 8192) (k : Fin 256) :
    idx_main_v1 (idx_main_v2 (idx_main_v8 (ix2 i j))) k = ix2 i k :=
  funext fun a => Fin.ext (by match a with | ⟨0, _⟩ => rfl | ⟨1, _⟩ => rfl)

/-- The right norm's summands at the entry (i, j) are those of row j: the column of norms is transposed
    into a row before it is spread over the matrix. -/
theorem idx_right (i j : Fin 8192) (k : Fin 256) :
    idx_main_v4 (idx_main_v5 (idx_main_v6 (idx_main_v9 (ix2 i j)))) k = ix2 j k :=
  funext fun a => Fin.ext (by match a with | ⟨0, _⟩ => rfl | ⟨1, _⟩ => rfl)

/-- The product's left factor at (i, j) and contraction index k is X (i, k) … -/
theorem idx_dotl (i j : Fin 8192) (k : Fin 256) : lidx_main_v7 (ix2 i j) k = ix2 i k :=
  funext fun a => Fin.ext (by match a with | ⟨0, _⟩ => rfl | ⟨1, _⟩ => rfl)

/-- … and its right factor Y (j, k). -/
theorem idx_dotr (i j : Fin 8192) (k : Fin 256) : ridx_main_v7 (ix2 i j) k = ix2 j k :=
  funext fun a => Fin.ext (by match a with | ⟨0, _⟩ => rfl | ⟨1, _⟩ => rfl)

/-- The reference's result is the Gram matrix of its arguments. -/
theorem result_eq (X Y : (⟨S8192x256, .f32⟩ : BufTy).Contents (Elt Ideal)) :
    val_main_v18 (F := Ideal) X Y = gram X Y := by
  funext p
  obtain ⟨i, j, rfl⟩ : ∃ (i : Fin 8192) (j : Fin 8192), p = ix2 i j := ⟨p 0, p 1, eq_ix2 p⟩
  rw [val_main_v18_apply, val_main_v17_apply, val_main_v16_apply, val_main_cst_3_apply,
    val_main_v15_apply, val_main_v14_apply, val_main_cst_2_apply, val_main_v13_apply,
    val_main_v12_apply, val_main_v11_apply, val_main_cst_1_apply, val_main_v7_apply,
    val_main_v10_apply, val_main_v9_apply, val_main_v6_apply, val_main_v5_apply, val_main_v4_apply,
    val_main_v8_apply, val_main_v2_apply, val_main_v1_apply, val_main_cst_apply, val_main_cst_0_apply]
  simp only [val_main_v0_apply, val_main_v3_apply, idx_left, idx_right, idx_dotl, idx_dotr,
    Ideal.hostUnary_exp_def, Ideal.mulf_def, Ideal.maximumf_def, Ideal.subf_def, Ideal.addf_def, Ideal.ofBits_def]
  rfl

end Cert.Rbf.Ref

end
-- ==== Proof.Body.lean ====
/-
  One tile of the kernel, entry by entry, on the extended reals. The body loads a 1024 × 256 block of each
  family of points, the matching 1024 × 1 column of left norms and 1 × 1024 row of right norms, and stores
  one 1024 × 1024 tile. At the entry (p, q) of the tile the stored value is `Cert.Rbf.rbfOf` of the column's
  entry p, the row's entry q, and the inner product of row p of the first block with row q of the second:
  the narrowing to bf16 is the identity on extended reals, the matrix unit's accumulator is the zero splat,
  and the two broadcasts spread a column over the columns and a row over the rows.
-/
import proofs.«126674_j65481071410012_1_alg».proof.Proof.Gen.KernelIdeal.Skeleton
import proofs.«126674_j65481071410012_1_alg».proof.Proof.Gram
import Idealize.ShloMosaic.Lib.Pipeline.Value
import Idealize.ShloMosaic.Lib.ValueLayout
import Idealize.ShloMosaic.PureOps.Ideal.Laws

noncomputable section

open Idealize.ShloMosaic Idealize.ShloMosaic.ValueIdx
open scoped BigOperators

namespace Cert.Rbf.Body

open Cert.KernelIdeal Cert.KernelIdeal.Gen

/-- The column of left norms spread over the tile reads, at (p, q), the column's entry p. -/
theorem col_apply (x2 : Vec Ideal S1024x1 .f32) (p q : Fin 1024) :
    broadcastTo S1024x1024 (shapeCast S1024x1 x2 shapeCasts_S1024x1_S1024x1) broadcasts_S1024x1_S1024x1024 (ix2 p q)
      = x2 (ix2 p (0 : Fin 1)) := by
  rw [shapeCast_self]
  refine broadcastTo_apply x2 _ (ix2 p q) (ix2 p (0 : Fin 1)) fun ax => ?_
  match ax with
  | ⟨0, _⟩ =>
    show p.val = if (1024 : Nat) = 1 then 0 else p.val
    rw [if_neg (by decide)]
  | ⟨1, _⟩ => rfl

/-- The row of right norms spread over the tile reads, at (p, q), the row's entry q. -/
theorem row_apply (x3 : Vec Ideal S1x1024 .f32) (p q : Fin 1024) :
    broadcastTo S1024x1024 (shapeCast S1x1024 x3 shapeCasts_S1x1024_S1x1024) broadcasts_S1x1024_S1024x1024 (ix2 p q)
      = x3 (ix2 (0 : Fin 1) q) := by
  rw [shapeCast_self]
  exact broadcastTo_1b_ab_apply x3 _ p q

/-- Along its one contracted axis the left operand of the tile's product keeps the output's row … -/
theorem lhs_tile_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- … and takes the contraction index on its second axis; -/
theorem lhs_tile_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- the right operand keeps the output's column as ITS row (both operands are contracted along their
    second axis: the product is X · Yᵀ) … -/
theorem rhs_tile_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- … and the contraction index on its second axis. -/
theorem rhs_tile_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The tile's matrix product into the zero splat, at (p, q): the inner product of row p of the first block
    with row q of the second. -/
theorem dot_apply (x0 x1 : Vec Ideal S1024x256 .f32) (p q : Fin 1024) :
    matmul (F := Ideal) dot_S1024x256_S1024x256_S1024x1024_1_1_0_0_n_n none (truncf .bf16 x0 bitsLt_bf16_f32) (truncf .bf16 x1 bitsLt_bf16_f32)
        (constant S1024x1024 .f32 0x00000000#32) (ix2 p q)
      = ∑ k : Fin 256, x0 (ix2 p k) * x1 (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_tile_0 _ _
    | ⟨1, _⟩ => exact (lhs_tile_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_tile_0 _ _
    | ⟨1, _⟩ => exact (rhs_tile_1 _ _).trans hk)
  rw [truncf_apply, truncf_apply, el, er]

/-- The stored tile at (p, q). -/
theorem tile_apply (x0 x1 : Vec Ideal S1024x256 .f32) (x2 : Vec Ideal S1024x1 .f32) (x3 : Vec Ideal S1x1024 .f32) (p q : Fin 1024) :
    k0_pay1 x0 x1 x2 x3 (ix2 p q)
      = rbfOf (x2 (ix2 p (0 : Fin 1))) (x3 (ix2 (0 : Fin 1) q)) (∑ k : Fin 256, x0 (ix2 p k) * x1 (ix2 q k)) := by
  unfold k0_pay1 rbfOf
  rw [← col_apply x2 p q, ← row_apply x3 p q, ← dot_apply x0 x1 p q]
  rfl

end Cert.Rbf.Body

end
-- ==== Proof.HostNorms.lean ====
/-
  What the kernel's pipeline finds in the two arrays its host prologue wrote: the 8192 × 1 column of the
  squared norms of the first family and the 1 × 8192 row of the squared norms of the second. Each squared
  norm is the host's sum along the coordinate axis of the entrywise squares, started from the zero word;
  the column is a rank-1 array given a trailing unit axis, the row is such a column transposed.
-/
import proofs.«126674_j65481071410012_1_alg».proof.Proof.Gen.KernelIdeal.Frame
import proofs.«126674_j65481071410012_1_alg».proof.Proof.Gram
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.ShloMosaic.ValueIdx Idealize.SL.Sem
open scoped BigOperators

namespace Cert.Rbf.HostNorms

open Cert.KernelIdeal Cert.KernelIdeal.Gen

/-- The column of squared norms of the rows of `A`, as the host prologue computes it. -/
def normsCol (A : Vec Ideal S8192x256 .f32) : Vec Ideal S8192x1 .f32 :=
  broadcastInDim S8192x1 ![0] bcast_S8192_S8192x1_0
    (Host.reduceAdd (mulf A A) (constant (F := Ideal) S_ .f32 0x00000000#32) reducesTo_S8192x256_S8192_d1 h_S_)

/-- The same norms laid out as a row. -/
def normsRow (A : Vec Ideal S8192x256 .f32) : Vec Ideal S1x8192 .f32 :=
  transpose S1x8192 [1, 0] (normsCol A) transposes_S8192x1_S1x8192_1_0

/-- Entry i of the column is the squared norm of row i. -/
theorem normsCol_apply (A : Vec Ideal S8192x256 .f32) (i : Fin 8192) :
    normsCol A (ix2 i (0 : Fin 1)) = sqNorm A i := by
  unfold normsCol sqNorm
  rw [broadcastInDim_apply _ bcast_S8192_S8192x1_0 _ (ix2 i (0 : Fin 1)) (ix1 i) (fun a => match a with
    | ⟨0, _⟩ => by show i.val = if (8192 : Nat) = 1 then 0 else i.val; rw [if_neg (by decide)])]
  generalize hsq : (mulf (F := Ideal) (φ := .f32) A A : FVec Ideal S8192x256 .f32) = sq
  simp only [Host.reduceAdd, Ideal.hostReduceAdd_def]
  rw [Ideal.hostReduceAdd_single reducesTo_S8192x256_S8192_d1 (by decide)]
  refine congrArg₂ (· + ·) rfl (Finset.sum_congr rfl fun k _ => ?_)
  rw [← hsq]
  exact congrArg (fun z => A z * A z) (funext fun a => Fin.ext (by match a with | ⟨0, _⟩ => rfl | ⟨1, _⟩ => rfl))

/-- Entry j of the row is the squared norm of row j. -/
theorem normsRow_apply (A : Vec Ideal S8192x256 .f32) (j : Fin 8192) :
    normsRow A (ix2 (0 : Fin 1) j) = sqNorm A j := by
  unfold normsRow
  rw [transpose_apply [1, 0] (normsCol A) transposes_S8192x1_S1x8192_1_0 (ix2 (0 : Fin 1) j) (ix2 j (0 : Fin 1)) (fun b => match b with
    | ⟨0, _⟩ => rfl
    | ⟨1, _⟩ => rfl)]
  exact normsCol_apply A j

variable (m : (ℓ : Loc nD τ sig) → Buf (Elt Ideal) ℓ)

/-- The third window's array, when the pipeline starts, is the column of squared norms of the first argument. -/
theorem col_found (c : Dev nD) :
    (V m c main_v2 : S8192x1.Idx → EReal) = normsCol (m ((c : Thread nD τ).loc main_arg0)) := by
  unfold normsCol
  dsimp only [V, hostOps0]
  after_results

/-- The fourth window's array is the row of squared norms of the second argument. -/
theorem row_found (c : Dev nD) :
    (V m c main_v6 : S1x8192.Idx → EReal) = normsRow (m ((c : Thread nD τ).loc main_arg1)) := by
  unfold normsRow normsCol
  dsimp only [V, hostOps0]
  after_results

end Cert.Rbf.HostNorms

end
-- ==== Proof.Blocks.lean ====
/-
  From tiles to the matrix. The grid has 8 × 8 points; at the point whose output tile is (R, C) the
  pipeline hands the body rows 1024·R … 1024·R + 1023 of the first family, rows 1024·C … of the second,
  the same rows of the column of left norms and the same columns of the row of right norms. So the tile
  the body stores is the Gram matrix restricted to rows 1024·R + p and columns 1024·C + q; the 64 tiles
  cover the matrix, and after the run the result array is the Gram matrix of the two arguments.
-/
import proofs.«126674_j65481071410012_1_alg».proof.Proof.Gen.KernelIdeal.Value
import proofs.«126674_j65481071410012_1_alg».proof.Proof.Body
import proofs.«126674_j65481071410012_1_alg».proof.Proof.HostNorms
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.Rbf.Blocks

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The five index maps at a grid point, decided over the 64 points: the blocks of the first family and of
    the left norms sit at the output tile's row, those of the second family and of the right norms at its
    column, and every other block index is zero. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every tile of the 8 × 8 tiling is some grid point's. -/
theorem idx_onto : ∀ (a b : Fin 8), ∃ t : Fin cfg0.N, win0_4.index t = ![a.val, b.val] :=
  (by decide +kernel : ∀ (a b : Fin 8), ∃ t : Fin grid0.N, win0_4.index t = ![a.val, b.val])

/-- The four input blocks at a point, each at its literal shape. -/
abbrev xblk (c : Dev nD) (t : Fin cfg0.N) : Vec Ideal S1024x256 .f32 := iblk m c 0 t
abbrev yblk (c : Dev nD) (t : Fin cfg0.N) : Vec Ideal S1024x256 .f32 := iblk m c 1 t
abbrev colblk (c : Dev nD) (t : Fin cfg0.N) : Vec Ideal S1024x1 .f32 := iblk m c 2 t
abbrev rowblk (c : Dev nD) (t : Fin cfg0.N) : Vec Ideal S1x1024 .f32 := iblk m c 3 t

/-- Row p of the first family's block is row 1024·R + p of the first argument. -/
theorem xblk_apply (c : Dev nD) (t : Fin cfg0.N) (p : Fin 1024) (k : Fin 256) (r : Fin 8192)
    (hr : r.val = win0_4.index t (0 : Fin 2) * 1024 + p.val) :
    xblk m c t (ix2 p k) = (m ((c : Thread nD τ).loc main_arg0) : S8192x256.Idx → EReal) (ix2 r k) := by
  obtain ⟨e0, e1, -⟩ := idx_facts t
  have h : ((cfg0.win 0).blk t).view.emb (ix2 p k) = ix2 r k := by
    funext a; apply Fin.ext
    match a with
    | ⟨0, _⟩ => show win0_0.index t (0 : Fin 2) * 1024 + 1 * p.val = r.val; omega
    | ⟨1, _⟩ => show win0_0.index t (1 : Fin 2) * 256 + 1 * k.val = k.val; omega
  show V m c main_arg0 (((cfg0.win 0).blk t).view.emb (ix2 p k)) = _
  rw [h, V_main_arg0]

/-- Row q of the second family's block is row 1024·C + q of the second argument. -/
theorem yblk_apply (c : Dev nD) (t : Fin cfg0.N) (q : Fin 1024) (k : Fin 256) (s : Fin 8192)
    (hs : s.val = win0_4.index t (1 : Fin 2) * 1024 + q.val) :
    yblk m c t (ix2 q k) = (m ((c : Thread nD τ).loc main_arg1) : S8192x256.Idx → EReal) (ix2 s k) := by
  obtain ⟨-, -, e0, e1, -⟩ := idx_facts t
  have h : ((cfg0.win 1).blk t).view.emb (ix2 q k) = ix2 s k := by
    funext a; apply Fin.ext
    match a with
    | ⟨0, _⟩ => show win0_1.index t (0 : Fin 2) * 1024 + 1 * q.val = s.val; omega
    | ⟨1, _⟩ => show win0_1.index t (1 : Fin 2) * 256 + 1 * k.val = k.val; omega
  show V m c main_arg1 (((cfg0.win 1).blk t).view.emb (ix2 q k)) = _
  rw [h, V_main_arg1]

/-- Entry p of the block of left norms is the squared norm of row 1024·R + p of the first argument. -/
theorem colblk_apply (c : Dev nD) (t : Fin cfg0.N) (p : Fin 1024) (r : Fin 8192)
    (hr : r.val = win0_4.index t (0 : Fin 2) * 1024 + p.val) :
    colblk m c t (ix2 p (0 : Fin 1)) = sqNorm (m ((c : Thread nD τ).loc main_arg0)) r := by
  obtain ⟨-, -, -, -, e0, e1, -⟩ := idx_facts t
  have h : ((cfg0.win 2).blk t).view.emb (ix2 p (0 : Fin 1)) = ix2 r (0 : Fin 1) := by
    funext a; apply Fin.ext
    match a with
    | ⟨0, _⟩ => show win0_2.index t (0 : Fin 2) * 1024 + 1 * p.val = r.val; omega
    | ⟨1, _⟩ => show win0_2.index t (1 : Fin 2) * 1 + 1 * 0 = 0; omega
  show (V m c main_v2 : S8192x1.Idx → EReal) (((cfg0.win 2).blk t).view.emb (ix2 p (0 : Fin 1))) = _
  rw [h, HostNorms.col_found, HostNorms.normsCol_apply]

/-- Entry q of the block of right norms is the squared norm of row 1024·C + q of the second argument. -/
theorem rowblk_apply (c : Dev nD) (t : Fin cfg0.N) (q : Fin 1024) (s : Fin 8192)
    (hs : s.val = win0_4.index t (1 : Fin 2) * 1024 + q.val) :
    rowblk m c t (ix2 (0 : Fin 1) q) = sqNorm (m ((c : Thread nD τ).loc main_arg1)) s := by
  obtain ⟨-, -, -, -, -, -, e0, e1, -⟩ := idx_facts t
  have h : ((cfg0.win 3).blk t).view.emb (ix2 (0 : Fin 1) q) = ix2 (0 : Fin 1) s := by
    funext a; apply Fin.ext
    match a with
    | ⟨0, _⟩ => show win0_3.index t (0 : Fin 2) * 1 + 1 * 0 = 0; omega
    | ⟨1, _⟩ => show win0_3.index t (1 : Fin 2) * 1024 + 1 * q.val = s.val; omega
  show (V m c main_v6 : S1x8192.Idx → EReal) (((cfg0.win 3).blk t).view.emb (ix2 (0 : Fin 1) q)) = _
  rw [h, HostNorms.row_found, HostNorms.normsRow_apply]

/-- The tile's entry (p, q) at the point whose tile is (R, C) is the Gram matrix's entry
    (1024·R + p, 1024·C + q). -/
theorem tile_entry (c : Dev nD) (t : Fin cfg0.N) (p q : Fin 1024) (r s : Fin 8192)
    (hr : r.val = win0_4.index t (0 : Fin 2) * 1024 + p.val) (hs : s.val = win0_4.index t (1 : Fin 2) * 1024 + q.val) :
    k0_pay1 (xblk m c t) (yblk m c t) (colblk m c t) (rowblk m c t) (ix2 p q)
      = entry (m ((c : Thread nD τ).loc main_arg0)) (m ((c : Thread nD τ).loc main_arg1)) r s := by
  rw [Body.tile_apply, colblk_apply m c t p r hr, rowblk_apply m c t q s hs]
  unfold entry inner
  refine congrArg _ (Finset.sum_congr rfl fun k _ => ?_)
  rw [xblk_apply m c t p k r hr, yblk_apply m c t q k s hs]

/-- Where the tile's entry (p, q) sits in the matrix. -/
theorem tile_emb (t : Fin cfg0.N) (p q : Fin 1024) (r s : Fin 8192)
    (hr : r.val = win0_4.index t (0 : Fin 2) * 1024 + p.val) (hs : s.val = win0_4.index t (1 : Fin 2) * 1024 + q.val) :
    ((cfg0.win 4).blk t).view.emb (ix2 p q) = ix2 r s := by
  funext a; apply Fin.ext
  match a with
  | ⟨0, _⟩ => show win0_4.index t (0 : Fin 2) * 1024 + 1 * p.val = r.val; omega
  | ⟨1, _⟩ => show win0_4.index t (1 : Fin 2) * 1024 + 1 * q.val = s.val; omega

/-- What a point writes back is its tile of the Gram matrix of the two arguments. -/
theorem flushed_eq (c : Dev nD) (t : Fin cfg0.N) :
    (dats m 0 c).flushed 4 t = ((cfg0.win 4).blk t).view.read (Elt Ideal)
      (gram (m ((c : Thread nD τ).loc main_arg0)) (m ((c : Thread nD τ).loc main_arg1))) := by
  rw [Cert.KernelIdeal.Value.flushed4]
  unfold out0_4
  rw [View.canon_unit_zero hz]
  simp only [View.ld_unit_zero (S := S1024x256) hz, View.ld_unit_zero (S := S1024x1) hz, View.ld_unit_zero (S := S1x1024) hz]
  obtain ⟨-, -, -, -, -, -, -, -, hR, hC⟩ := idx_facts t
  funext j
  obtain ⟨p, q, rfl⟩ : ∃ (p : Fin 1024) (q : Fin 1024), j = ix2 p q := ⟨j 0, j 1, eq_ix2 j⟩
  have hp := p.isLt
  have hq := q.isLt
  refine (tile_entry m c t p q ⟨win0_4.index t (0 : Fin 2) * 1024 + p.val, by omega⟩ ⟨win0_4.index t (1 : Fin 2) * 1024 + q.val, by omega⟩ rfl rfl).trans ?_
  rw [View.read_apply, tile_emb t p q ⟨win0_4.index t (0 : Fin 2) * 1024 + p.val, by omega⟩ ⟨win0_4.index t (1 : Fin 2) * 1024 + q.val, by omega⟩ rfl rfl]
  rfl

/-- An index of the matrix is in a point's tile iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- The 64 tiles cover the matrix: the entry (r, s) is in the tile (r / 1024, s / 1024). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the run the result array is the Gram matrix of the two arguments. -/
theorem final (c : Dev nD) :
    (dats m 0 c).arrAt 4 cfg0.N = gram (m ((c : Thread nD τ).loc main_arg0)) (m ((c : Thread nD τ).loc main_arg1)) :=
  (dats m 0 c).arrAt_eq_of_cover 4 _ (fun t _ => flushed_eq m c t) cover

/-- The kernel's run, read: the result at the Gram matrix of the arguments, the arguments unchanged. -/
theorem run : θ_run defs (onTc (τ := τ) (main (F := Ideal))) ⟨m, fun _ => 0, ρ⟩ fun r => ∀ c : Dev nD,
      r.2.mem ((c : Thread nD τ).loc main_v7) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Blocks

end
-- ==== Proof.lean ====
/-
  The radial-basis Gram matrix K (i, j) = exp (−max (‖X_i‖² + ‖Y_j‖² − 2 ⟨X_i, Y_j⟩, 0)) of two families of
  8192 points in dimension 256, computed by a tiled kernel and by a plain array program.

  Both programs use the norm expansion of the squared distance, and both compute the two vectors of squared
  norms with the same array operations; they differ in how the inner products are taken. The kernel cuts the
  matrix into 8 × 8 tiles of 1024 × 1024; for each tile it multiplies, on the matrix unit and after narrowing
  to bf16, the 1024 rows of X by the 1024 rows of Y of that tile and finishes the expression on the tile. The
  array program takes all inner products in one contraction. On the extended reals narrowing is the identity
  and each inner product is the same sum over the 256 coordinates whichever tile it is computed in, so every
  entry of the result is the same expression of the arguments in both programs: `Cert.Rbf.gram`. No
  rearrangement of the arithmetic is needed, so the finiteness of the inputs is never used.

  The modules: `Gram` (the matrix as a function of the arguments), `RefGram` (the array program computes
  it), `Body` (one tile entry by entry), `HostNorms` (what the kernel's prologue leaves for the pipeline),
  `Blocks` (each tile is its part of the matrix, the tiles cover it, the kernel's run). The three frames
  and both runs are the generated ones.
-/
import proofs.«126674_j65481071410012_1_alg».proof.Defs
import proofs.«126674_j65481071410012_1_alg».proof.Proof.Gen.Kernel
import proofs.«126674_j65481071410012_1_alg».proof.Proof.Gen.Kernel.Skeleton
import proofs.«126674_j65481071410012_1_alg».proof.Proof.Gen.Kernel.Launch
import proofs.«126674_j65481071410012_1_alg».proof.Proof.Gen.Kernel.Points
import proofs.«126674_j65481071410012_1_alg».proof.Proof.Gen.Kernel.Frame
import proofs.«126674_j65481071410012_1_alg».proof.Proof.Gen.KernelIdeal
import proofs.«126674_j65481071410012_1_alg».proof.Proof.Gen.KernelIdeal.Skeleton
import proofs.«126674_j65481071410012_1_alg».proof.Proof.Gen.KernelIdeal.Launch
import proofs.«126674_j65481071410012_1_alg».proof.Proof.Gen.KernelIdeal.Points
import proofs.«126674_j65481071410012_1_alg».proof.Proof.Gen.KernelIdeal.Frame
import proofs.«126674_j65481071410012_1_alg».proof.Proof.Gen.ReferenceIdeal
import proofs.«126674_j65481071410012_1_alg».proof.Proof.Gen.Pre_finite_inputs
import proofs.«126674_j65481071410012_1_alg».proof.Proof.Gen.KernelIdeal.Value
import proofs.«126674_j65481071410012_1_alg».proof.Proof.Gen.ReferenceIdeal.Run
import proofs.«126674_j65481071410012_1_alg».proof.Proof.Gen.ReferenceIdeal.Read
import proofs.«126674_j65481071410012_1_alg».proof.Proof.RefGram
import proofs.«126674_j65481071410012_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The array program's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the Gram matrix of their arguments, and the arguments agree. -/
theorem algebraic : Cert.algebraic_KernelIdeal_ReferenceIdeal := by
  intro m ρ m' ρ' _ hagree
  refine ⟨fun c => Cert.Rbf.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
